-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 2
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  bitsLt_bf16_f32 : FTy.bits .bf16 < FTy.bits .f32
  transposes_S512x512_p1_0_S512x512 : S512x512.Transposes [1, 0] S512x512
  transposes_S512x1_p1_0_S1x512 : S512x1.Transposes [1, 0] S1x512
  broadcasts_S512x1_S512x512 : S512x1.Broadcasts S512x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x8192.size a
  hwx0_2 : ∀ i : grid0.Coords, EltTy.bits .f32 = 32 ∨ (Rect.block (s := S8192x8192) S512x512.size (cc0_transform_2 i) (hinb0_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibSharedInputs.lean ====
/-
  A one-region pipeline whose INPUT windows may read one and the same array.

  When a kernel is handed one array through several input windows, the array's buffer cannot be held whole by
  each of them; it is held once, and its full share is dealt among the windows that read it. This file states
  the run of such a program once: from any memory with zero counters every weakly fair execution of the program
  (the region alone, or host operations and then the region) terminates, and every window's array ends at the
  contents the pipeline rule computes from the proof data, provided the proof says how the buffers behind the
  arrays, each whole at the full share, make the windows' arrays at their shares (`hsplit`). The kernel has no
  semaphore of its own and draws no random numbers: its invariant is only the scoped buffers that are no
  staging buffer. Also here: a full share splits into its two halves at the same contents.
-/
import Idealize.ShloMosaic.Lib.Pipeline.Frame

noncomputable section

namespace Idealize.ShloMosaic

open Idealize.SL
open Idealize.SL.BI (sProp bigSep)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedInputs

variable {Λ₀ : SL.Sem.Labels} {P : Type} [Fintype P] [DecidableEq P] [∀ e, Nonempty (Val e)]

local notation "𝕄" => MT nD τ sig Unit Val ℕ (UR sig nD τ) ℕ

/-- A buffer held at the full share is held at the two halves of that share, at the same contents. -/
theorem pointsTo_full_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- The run of a one-region program whose input windows may share arrays: every window's array ends at the
    pipeline rule's `arrAt w N`. The invariant is entered from the scoped buffers that are no staging buffer
    (`hin`) and gives them back (`hout`); `hsplit` deals the arrays' buffers among the windows. -/
theorem θ_run_shared_inputs
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (fun r => ∀ (c : Dev nD) (w : Fin (cfg).W),
      r.2.mem (((cfg).spec w).arr.view.loc (c.tc : Thread nD τ)) = (dats p c).arrAt w (cfg).N) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (cfg).spec c : sProp 𝕄) from by iintro ⟨-, HR⟩; iexact HR).trans (hin c))
    (hout := fun c => (hout c).trans (by
      iintro HR
      isplitr; · iempintro
      iexact HR))
    (QY := fun _ _ => True)
    (hY := fun c s' => by
      iintro ⟨-, -, HSI⟩
      imodintro
      isplitr; · ipureintro; trivial
      iexact HSI)
    (hQ := fun s h c w => (h c).1 w)

end SharedInputs

end Pipeline

end Idealize.ShloMosaic

end
-- ==== Proof.FrameBits.lean ====
/-
  The frame of `Kernel`: the pipelined call runs to its end from any memory with zero counters, nothing faults,
  and the argument array ends as it began.

  The call reads ONE array, the 8192 × 512 input, through TWO input windows: window 0 takes the row block of
  grid coordinate i, window 1 the row block of grid coordinate j; window 2 writes the 512 × 512 output block
  (i, j). Since both input windows sit on one buffer, the buffer's full share is dealt in halves: the left half
  to window 0, the right half to window 1; each half suffices to read. The output array is held outright.
  The body loads both input blocks whole, computes one 512 × 512 value from them and stores it over the whole
  output block; it keeps nothing between grid points, so the invariant between points is just the scoped buffers
  that are no staging buffer (there are none). What the output's staging buffer holds after the body is the one
  stored value `k0_pay1` of the two loaded blocks.
-/
import proofs.«104389_j40492951667428_1_alg».proof.Proof.Gen.Kernel.Launch
import proofs.«104389_j40492951667428_1_alg».proof.Proof.Gen.Kernel.Skeleton
import proofs.«104389_j40492951667428_1_alg».proof.Proof.Gen.Kernel.Points
import proofs.«104389_j40492951667428_1_alg».proof.Proof.LibSharedInputs
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region, and the windows' blocks -/

/-- The buffers as the region finds them: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 512 × 512 block: the one rectangle every load and the store of the body go through. -/
abbrev whole : Rect S512x512 := Rect.unit (s := S512x512) ![0, 0] S512x512.size inb_S512x512_S512x512_0_0

/-- The output's staging buffer after the body: its one store, of the value computed from the two loaded blocks. -/
def outBlock (x0 : Vec F S512x512 .f32) (x1 : Vec F S512x512 .f32) : Vec F S512x512 .f32 :=
  View.canon [⟨whole, k0_pay1 (View.ld x0 whole) (View.ld x1 whole)⟩]

/-- The store covers the buffer. -/
theorem outCover (p0 : Vec F S512x512 .f32) (y : S512x512.Idx) :
    ∃ pc ∈ ([⟨whole, p0⟩] : List (View.Piece (Elt F) S512x512 .f32)), y ∈ pc.1.set :=
  View.cover_of_tiled [⟨whole, p0⟩] S512x512.size (by rfl) y

/-! ## The body's triple -/

set_option maxHeartbeats 1000000 in
/-- On whole staging memrefs, the inputs' at contents `x0`, `x1` and the output's at anything, the body runs to
    the inputs' as they were and the output's at `outBlock x0 x1`. -/
theorem sound_kernel (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole)
    (x0 : Vec F S512x512 .f32) (x1 : Vec F S512x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__rbf_kernel i arg2 harg2 arg3 harg3 arg4 harg4) K := by
  simp only [cc0__rbf_kernel_eq_skeleton]; unfold cc0__rbf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- The arrays as the region finds them; after the body each input's buffer at its block and the output's at
    `outBlock` of the two input blocks; the input array's share dealt in halves between the two windows that
    read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The one input buffer dealt to its two windows -/

/-- Two buffers held whole: the first is dealt into the two halves of its share, the second stays as it is. -/
theorem deal_halves {ℓa ℓv : Loc nD τ sig} (fa : Buf (Elt F) ℓa) (fv : Buf (Elt F) ℓv) :
    (iprop((ℓa ↦{fullShare} fa) ∗ (ℓv ↦{fullShare} fv)) : sProp 𝕄)
      ⊢ iprop((ℓa ↦{fullShare.left} fa) ∗ (ℓa ↦{fullShare.right} fa) ∗ (ℓv ↦{fullShare} fv)) :=
  (sep_mono_left (Pipeline.pointsTo_full_halves ℓa fa)).trans sep_assoc.1

/-- The two buffers behind the three windows' arrays, each whole at the full share, make the windows' arrays
    at their shares: the input's buffer split into its halves, the output's as it is. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0, BI.bigSep_eq_bigSepL_of_eq [main_arg0, main_v0] (by decide) (by decide)]
  have e0 : ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = (((c : Thread nD τ).loc main_arg0) ↦{fullShare.right} V m c main_arg0) := by
    rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = (((c : Thread nD τ).loc main_v0) ↦{fullShare} V m c main_v0) := by
    rw [(arr_whole0 2).set_eq_univ]; rfl
  rw [e0, e1, e2]
  exact deal_halves _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, and every window's array ends at
    what the pipeline rule computes from the proof data. -/
theorem run_main : θ_run defs (onTc (τ := τ) (main (F := F))) (s₀ m ρ) (fun r => ∀ (c : Dev nD) (w : Fin cfg0.W),
      r.2.mem ((spec0 w).arr.view.loc (c.tc : Thread nD τ)) = (dats m 0 c).arrAt w cfg0.N) :=
  Pipeline.θ_run_shared_inputs cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The argument array ends as it began: it is read through input windows only, and an input's array is never
    written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.Kernel.Frame

end
-- ==== Proof.FrameIdeal.lean ====
/-
  The frame of `KernelIdeal`: the pipelined call runs to its end from any memory with zero counters, nothing faults,
  and the argument array ends as it began.

  The call reads ONE array, the 8192 × 512 input, through TWO input windows: window 0 takes the row block of
  grid coordinate i, window 1 the row block of grid coordinate j; window 2 writes the 512 × 512 output block
  (i, j). Since both input windows sit on one buffer, the buffer's full share is dealt in halves: the left half
  to window 0, the right half to window 1; each half suffices to read. The output array is held outright.
  The body loads both input blocks whole, computes one 512 × 512 value from them and stores it over the whole
  output block; it keeps nothing between grid points, so the invariant between points is just the scoped buffers
  that are no staging buffer (there are none). What the output's staging buffer holds after the body is the one
  stored value `k0_pay1` of the two loaded blocks.
-/
import proofs.«104389_j40492951667428_1_alg».proof.Proof.Gen.KernelIdeal.Launch
import proofs.«104389_j40492951667428_1_alg».proof.Proof.Gen.KernelIdeal.Skeleton
import proofs.«104389_j40492951667428_1_alg».proof.Proof.Gen.KernelIdeal.Points
import proofs.«104389_j40492951667428_1_alg».proof.Proof.LibSharedInputs
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region, and the windows' blocks -/

/-- The buffers as the region finds them: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: where it is not
    fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The whole 512 × 512 block: the one rectangle every load and the store of the body go through. -/
abbrev whole : Rect S512x512 := Rect.unit (s := S512x512) ![0, 0] S512x512.size inb_S512x512_S512x512_0_0

/-- The output's staging buffer after the body: its one store, of the value computed from the two loaded blocks. -/
def outBlock (x0 : Vec F S512x512 .f32) (x1 : Vec F S512x512 .f32) : Vec F S512x512 .f32 :=
  View.canon [⟨whole, k0_pay1 (View.ld x0 whole) (View.ld x1 whole)⟩]

/-- The store covers the buffer. -/
theorem outCover (p0 : Vec F S512x512 .f32) (y : S512x512.Idx) :
    ∃ pc ∈ ([⟨whole, p0⟩] : List (View.Piece (Elt F) S512x512 .f32)), y ∈ pc.1.set :=
  View.cover_of_tiled [⟨whole, p0⟩] S512x512.size (by rfl) y

/-! ## The body's triple -/

set_option maxHeartbeats 1000000 in
/-- On whole staging memrefs, the inputs' at contents `x0`, `x1` and the output's at anything, the body runs to
    the inputs' as they were and the output's at `outBlock x0 x1`. -/
theorem sound_kernel (c : Dev nD) (E : Set ℕ) (i : grid0.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole)
    (x0 : Vec F S512x512 .f32) (x1 : Vec F S512x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__rbf_kernel i arg2 harg2 arg3 harg3 arg4 harg4) K := by
  simp only [cc0__rbf_kernel_eq_skeleton]; unfold cc0__rbf_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- The arrays as the region finds them; after the body each input's buffer at its block and the output's at
    `outBlock` of the two input blocks; the input array's share dealt in halves between the two windows that
    read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The one input buffer dealt to its two windows -/

/-- Two buffers held whole: the first is dealt into the two halves of its share, the second stays as it is. -/
theorem deal_halves {ℓa ℓv : Loc nD τ sig} (fa : Buf (Elt F) ℓa) (fv : Buf (Elt F) ℓv) :
    (iprop((ℓa ↦{fullShare} fa) ∗ (ℓv ↦{fullShare} fv)) : sProp 𝕄)
      ⊢ iprop((ℓa ↦{fullShare.left} fa) ∗ (ℓa ↦{fullShare.right} fa) ∗ (ℓv ↦{fullShare} fv)) :=
  (sep_mono_left (Pipeline.pointsTo_full_halves ℓa fa)).trans sep_assoc.1

/-- The two buffers behind the three windows' arrays, each whole at the full share, make the windows' arrays
    at their shares: the input's buffer split into its halves, the output's as it is. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0, BI.bigSep_eq_bigSepL_of_eq [main_arg0, main_v0] (by decide) (by decide)]
  have e0 : ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare.left} V m c main_arg0) := by
    rw [(arr_whole0 0).set_eq_univ]; rfl
  have e1 : ((cfg0.win 1).arr.view.loc (c.tc : Thread nD τ) ↦[(cfg0.win 1).arr.view.set]{(dats m 0 c).share 1} (dats m 0 c).arrAt 1 0 : sProp 𝕄)
      = (((c : Thread nD τ).loc main_arg0) ↦{fullShare.right} V m c main_arg0) := by
    rw [(arr_whole0 1).set_eq_univ]; rfl
  have e2 : ((cfg0.win 2).arr.view.loc (c.tc : Thread nD τ) ↦[(cfg0.win 2).arr.view.set]{(dats m 0 c).share 2} (dats m 0 c).arrAt 2 0 : sProp 𝕄)
      = (((c : Thread nD τ).loc main_v0) ↦{fullShare} V m c main_v0) := by
    rw [(arr_whole0 2).set_eq_univ]; rfl
  rw [e0, e1, e2]
  exact deal_halves _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution terminates, and every window's array ends at
    what the pipeline rule computes from the proof data. -/
theorem run_main : θ_run defs (onTc (τ := τ) (main (F := F))) (s₀ m ρ) (fun r => ∀ (c : Dev nD) (w : Fin cfg0.W),
      r.2.mem ((spec0 w).arr.view.loc (c.tc : Thread nD τ)) = (dats m 0 c).arrAt w cfg0.N) :=
  Pipeline.θ_run_shared_inputs cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The argument array ends as it began: it is read through input windows only, and an input's array is never
    written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.KernelIdeal.Frame

end
-- ==== Proof.BlockValue.lean ====
/-
  What the kernel body stores at one position of its 512 × 512 output block, from its two 512 × 512 input blocks.
-/
import proofs.«104389_j40492951667428_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Rbf.BlockSide

open Idealize.ShloMosaic Idealize.ShloMosaic.ValueIdx Cert.KernelIdeal Cert.KernelIdeal.Gen

section Layout
variable {α : Type}

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The squared norms of the rows -/

/-- The sum along the lanes of a `512 × 512` block, read at row `p`: the sum of that row. -/
theorem rowSum_apply (v : FVec Ideal S512x512 .f32) (h : S512x512.Reduces [1] S512) (hφ : FKind.Formats .f32)
    (hacc : (0x00000000#32 : BitVec 32) = FKind.add.neutral .f32 hφ) (p : Fin 512) :
    multiReduction (F := Ideal) .add [1] S512 v 0x00000000#32 h hφ hacc (ix1 p) = ∑ k : Fin 512, v (ix2 p k) := by
  refine (Ideal.multiReduction_add_single v _ h hφ hacc (ix1 p)).trans ?_
  refine Finset.sum_congr rfl fun k _ => congrArg v ?_
  funext a
  refine Fin.ext ?_
  match a with
  | ⟨0, _⟩ => rfl
  | ⟨1, _⟩ => rfl

/-- The row sums kept as a column and spread over the columns: at `(p, q)`, the sum of row `p`. -/
theorem rowNorm_apply (v : FVec Ideal S512x512 .f32) (h : S512x512.Reduces [1] S512) (hφ : FKind.Formats .f32)
    (hacc : (0x00000000#32 : BitVec 32) = FKind.add.neutral .f32 hφ) (hc : S512.ShapeCasts S512x1)
    (hb : S512x1.Broadcasts S512x512) (p q : Fin 512) :
    broadcastTo S512x512 (shapeCast S512x1 (multiReduction (F := Ideal) .add [1] S512 v 0x00000000#32 h hφ hacc) hc) hb (ix2 p q)
      = ∑ k : Fin 512, v (ix2 p k) :=
  (broadcastTo_a1_ab_apply _ hb p q).trans ((shapeCast_a_a1_apply _ hc p 0).trans (rowSum_apply v h hφ hacc p))

/-- The row sums kept as a column, turned into a row and spread over the rows: at `(p, q)`, the sum of row `q`. -/
theorem colNorm_apply (v : FVec Ideal S512x512 .f32) (h : S512x512.Reduces [1] S512) (hφ : FKind.Formats .f32)
    (hacc : (0x00000000#32 : BitVec 32) = FKind.add.neutral .f32 hφ) (hc : S512.ShapeCasts S512x1)
    (ht : S512x1.Transposes [1, 0] S1x512) (hb : S1x512.Broadcasts S512x512) (p q : Fin 512) :
    broadcastTo S512x512 (transpose S1x512 [1, 0]
        (shapeCast S512x1 (multiReduction (F := Ideal) .add [1] S512 v 0x00000000#32 h hφ hacc) hc) ht) hb (ix2 p q)
      = ∑ k : Fin 512, v (ix2 q k) :=
  (broadcastTo_1b_ab_apply _ hb p q).trans ((transpose_ix2_apply _ ht 0 q).trans
    ((shapeCast_a_a1_apply _ hc q 0).trans (rowSum_apply v h hφ hacc q)))

/-! ## The product of the two blocks, read at an index

The four coordinates of the two operand indices of the contraction, one lemma per axis. -/

theorem gram_lhs_0 (i : S512x512.Idx) (c : dot_S512x512_S512x512_S512x512_1_0_0_1_n_n.contr.Idx) :
    (dot_S512x512_S512x512_S512x512_1_0_0_1_n_n.lhsIdx i c 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem gram_lhs_1 (i : S512x512.Idx) (c : dot_S512x512_S512x512_S512x512_1_0_0_1_n_n.contr.Idx) :
    (dot_S512x512_S512x512_S512x512_1_0_0_1_n_n.lhsIdx i c 1).val = (c ⟨0, by decide⟩).val :=
  dot_S512x512_S512x512_S512x512_1_0_0_1_n_n.lhsIdx_val_of_single rfl i c
theorem gram_rhs_0 (i : S512x512.Idx) (c : dot_S512x512_S512x512_S512x512_1_0_0_1_n_n.contr.Idx) :
    (dot_S512x512_S512x512_S512x512_1_0_0_1_n_n.rhsIdx i c 0).val = (c ⟨0, by decide⟩).val :=
  dot_S512x512_S512x512_S512x512_1_0_0_1_n_n.rhsIdx_val_of_single rfl i c
theorem gram_rhs_1 (i : S512x512.Idx) (c : dot_S512x512_S512x512_S512x512_1_0_0_1_n_n.contr.Idx) :
    (dot_S512x512_S512x512_S512x512_1_0_0_1_n_n.rhsIdx i c 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matrix product into the zero accumulator, read at `(p, q)`: row `p` of the left operand against column `q`
    of the right one. -/
theorem gram_apply (a b : FVec Ideal S512x512 .bf16) (p q : Fin 512) :
    matmul dot_S512x512_S512x512_S512x512_1_0_0_1_n_n none a b (constant (F := Ideal) S512x512 .f32 0x00000000#32) (ix2 p q)
      = ∑ k : Fin 512, a (ix2 p k) * b (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun c => Fin.ext (by
    match c with
    | ⟨0, _⟩ => exact gram_lhs_0 _ _
    | ⟨1, _⟩ => exact (gram_lhs_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun c => Fin.ext (by
    match c with
    | ⟨0, _⟩ => exact (gram_rhs_0 _ _).trans hk
    | ⟨1, _⟩ => exact gram_rhs_1 _ _)
  rw [el, er]

/-- The product of the left block with the right block turned over, both read as they are (the narrowing of the
    format changes no value): at `(p, q)`, row `p` of the one against row `q` of the other. -/
theorem gramT_apply (x y : FVec Ideal S512x512 .f32) (hb : FTy.bits .bf16 < FTy.bits .f32)
    (ht : S512x512.Transposes [1, 0] S512x512) (p q : Fin 512) :
    matmul dot_S512x512_S512x512_S512x512_1_0_0_1_n_n none (truncf .bf16 x hb) (transpose S512x512 [1, 0] (truncf .bf16 y hb) ht)
        (constant (F := Ideal) S512x512 .f32 0x00000000#32) (ix2 p q)
      = ∑ k : Fin 512, x (ix2 p k) * y (ix2 q k) := by
  refine (gram_apply _ _ p q).trans (Finset.sum_congr rfl fun k _ => ?_)
  rw [transpose_ix2_apply]
  rfl

/-! ## The stored value -/

/-- The exponential of a block, read at an index. -/
theorem exp_apply {s : Shape} {φ : FTy} (a : FVec Ideal s φ) (i : s.Idx) : exp a i = Ideal.exp (a i) := rfl

/-- The scalar tail: the zero word is `0`, and `0 - m = -m`. -/
theorem tail_eq {A B G A' B' G' : EReal} (two half : EReal) (hA : A = A') (hB : B = B') (hG : G = G') :
    Ideal.exp ((Ideal.ofBits .f32 0x00000000#32 - max (A + B - two * G) (Ideal.ofBits .f32 0x00000000#32)) * half)
      = Ideal.exp (-(max (A' + B' - two * G') 0) * half) := by
  subst hA hB hG
  rw [Ideal.ofBits_zero_f32, sub_eq_add_neg (0 : EReal), zero_add]

theorem block_entry (x0 x1 : Vec Ideal Cert.KernelIdeal.S512x512 .f32) (p q : Fin 512) :
    Cert.KernelIdeal.Gen.k0_pay1 (F := Ideal) x0 x1 (ix2 p q)
      = Ideal.exp (-(max ((∑ k : Fin 512, x0 (ix2 p k) * x0 (ix2 p k)) + (∑ k : Fin 512, x1 (ix2 q k) * x1 (ix2 q k))
            - Ideal.ofBits .f32 0x40000000#32 * ∑ k : Fin 512, x0 (ix2 p k) * x1 (ix2 q k)) 0) * Ideal.ofBits .f32 0x3F000000#32) := by
  unfold Gen.k0_pay1
  simp only [exp_apply, mulf_apply, subf_apply, maximumf_apply, addf_apply, broadcast_apply, Ideal.ofBits_def]
  exact tail_eq _ _ (rowNorm_apply (mulf x0 x0) _ _ _ _ _ p q) (colNorm_apply (mulf x1 x1) _ _ _ _ _ _ p q)
    (gramT_apply x0 x1 _ _ p q)

end Cert.Rbf.BlockSide

end
-- ==== Proof.Spec.lean ====
/-
  The function both programs compute, on the extended reals. From a matrix `x` of 8192 rows with 512 entries
  each, the 8192 × 8192 matrix whose entry (r, c) is

      exp (-(max (‖x_r‖² + ‖x_c‖² - 2 · ⟨x_r, x_c⟩) 0) · ½),

  the Gaussian kernel of bandwidth one between rows r and c, the squared distance expanded through the Gram
  entry ⟨x_r, x_c⟩ and clamped at zero. The constants 2 and ½ are kept as the float words the two programs share;
  they are never evaluated.
-/
import Idealize.ShloMosaic.PureOps.Ideal
import Idealize.ShloMosaic.Lib.ValueIdx

noncomputable section

namespace Cert.Rbf

open Idealize.ShloMosaic Idealize.ShloMosaic.ValueIdx

/-- The input's shape: 8192 rows of 512 entries. -/
abbrev SIn : Shape := ⟨2, ![8192, 512]⟩
/-- The result's shape: one entry per pair of rows. -/
abbrev SOut : Shape := ⟨2, ![8192, 8192]⟩

/-- The squared Euclidean norm of row `r`. -/
def rowSq (x : SIn.Idx → EReal) (r : Fin 8192) : EReal := ∑ k : Fin 512, x (ix2 r k) * x (ix2 r k)

/-- The inner product of rows `r` and `c`: the Gram matrix's entry. -/
def rowDot (x : SIn.Idx → EReal) (r c : Fin 8192) : EReal := ∑ k : Fin 512, x (ix2 r k) * x (ix2 c k)

/-- The kernel's value between rows `r` and `c`. -/
def entry (x : SIn.Idx → EReal) (r c : Fin 8192) : EReal :=
  Ideal.exp (-(max (rowSq x r + rowSq x c - Ideal.ofBits .f32 0x40000000#32 * rowDot x r c) 0) * Ideal.ofBits .f32 0x3F000000#32)

/-- The whole result, index by index. -/
def rbf (x : SIn.Idx → EReal) : SOut.Idx → EReal := fun i => entry x (i 0) (i 1)

theorem rbf_ix2 (x : SIn.Idx → EReal) (r c : Fin 8192) : rbf x (ix2 r c) = entry x r c := rfl

end Cert.Rbf

end
-- ==== Proof.ValueIdeal.lean ====
/-
  The idealized kernel's result array after the run is the Gaussian kernel matrix `Cert.Rbf.rbf` of its argument.

  Grid point (i, j) writes back the 512 × 512 block (i, j) of the result. Its entry (p, q) is computed from row p of
  the input's row block i and row q of the input's row block j, that is from rows 512·i + p and 512·j + q of the
  argument: exactly the rows entry (512·i + p, 512·j + q) of the matrix depends on. So what each point writes back
  is its block of one whole-array function of the argument; the 16 × 16 blocks tile the 8192 × 8192 result (entry
  (r, c) lies in the block of the point with block indices r / 512 and c / 512), hence the array ends at that function.
-/
import proofs.«104389_j40492951667428_1_alg».proof.Proof.FrameIdeal
import proofs.«104389_j40492951667428_1_alg».proof.Proof.BlockValue
import proofs.«104389_j40492951667428_1_alg».proof.Proof.Spec
import Idealize.ShloMosaic.Lib.Pipeline.Value

set_option maxRecDepth 16384

noncomputable section

namespace Cert.KernelIdeal.RbfValue

open Cert.KernelIdeal Cert.KernelIdeal.Gen Cert.KernelIdeal.Frame Cert.Rbf
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem origin_zero : (![0, 0] : Fin 2 → Nat) = fun _ => 0 := funext fun a => by fin_cases a <;> rfl

/-- One entry from the two blocks that hold its rows: if `x0` is row block `bi` of `X` and `x1` row block `bj`,
    the body's value at (p, q) is the matrix entry between rows 512·bi + p and 512·bj + q of `X`. -/
theorem entry_of_blocks (X : SIn.Idx → EReal) (x0 x1 : Vec Ideal S512x512 .f32) (bi bj : Nat) (hbi : bi ≤ 15) (hbj : bj ≤ 15)
    (h0 : ∀ (p k : Fin 512), x0 (ix2 p k) = X (ix2 (⟨bi * 512 + p.val, by have := p.isLt; omega⟩ : Fin 8192) k))
    (h1 : ∀ (q k : Fin 512), x1 (ix2 q k) = X (ix2 (⟨bj * 512 + q.val, by have := q.isLt; omega⟩ : Fin 8192) k))
    (p q : Fin 512) :
    k0_pay1 (F := Ideal) x0 x1 (ix2 p q)
      = entry X (⟨bi * 512 + p.val, by have := p.isLt; omega⟩ : Fin 8192) (⟨bj * 512 + q.val, by have := q.isLt; omega⟩ : Fin 8192) := by
  rw [Cert.Rbf.BlockSide.block_entry]
  unfold entry rowSq rowDot
  simp only [h0, h1]

/-- The windows' block indices over the grid: window 0 follows the output's row index, window 1 its column
    index, both at column block 0; the output's block indices stay below 16. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 15 :=
  (by decide +kernel : ∀ t : Fin grid0.N, _)

/-- Every one of the 16 × 16 output blocks is some grid point's. -/
theorem idx_onto : ∀ (q0 q1 : Fin 16), ∃ t : Fin cfg0.N, win0_2.index t = ![q0.val, q1.val] :=
  (by decide +kernel : ∀ (q0 q1 : Fin 16), ∃ t : Fin grid0.N, win0_2.index t = ![q0.val, q1.val])

/-- What grid point `t` writes back is its block of the matrix of the argument. -/
theorem flushed_eq (c : Dev nD) (t : Fin cfg0.N) :
    (dats m 0 c).flushed 2 t = ((cfg0.win 2).blk t).view.read (Elt Ideal) (rbf (V m c main_arg0)) := by
  show (cfg0.win 2).cut (grid0.coords t) ((dats m 0 c).after 2 t) = _
  rw [after0_2]
  unfold outBlock
  rw [View.canon_unit_zero origin_zero]
  simp only [View.ld_unit_zero (S := S512x512) origin_zero]
  obtain ⟨e0, e1, e2, e3, e4, e5⟩ := idx_facts t
  funext j
  obtain ⟨p, q, rfl⟩ : ∃ (p : Fin 512) (q : Fin 512), j = ix2 p q := ⟨j 0, j 1, eq_ix2 j⟩
  refine (entry_of_blocks (V m c main_arg0) _ _ (win0_2.index t (0 : Fin 2)) (win0_2.index t (1 : Fin 2)) e4 e5 ?_ ?_ p q).trans ?_
  · intro p k
    show V m c main_arg0 (((cfg0.win 0).blk t).view.emb (ix2 p k)) = V m c main_arg0 _
    refine congrArg _ (funext fun a => Fin.ext ?_)
    match a with
    | ⟨0, _⟩ => show win0_0.index t (0 : Fin 2) * 512 + 1 * p.val = win0_2.index t (0 : Fin 2) * 512 + p.val; omega
    | ⟨1, _⟩ => show win0_0.index t (1 : Fin 2) * 512 + 1 * k.val = k.val; omega
  · intro q k
    show V m c main_arg0 (((cfg0.win 1).blk t).view.emb (ix2 q k)) = V m c main_arg0 _
    refine congrArg _ (funext fun a => Fin.ext ?_)
    match a with
    | ⟨0, _⟩ => show win0_1.index t (0 : Fin 2) * 512 + 1 * q.val = win0_2.index t (1 : Fin 2) * 512 + q.val; omega
    | ⟨1, _⟩ => show win0_1.index t (1 : Fin 2) * 512 + 1 * k.val = k.val; omega
  · show _ = rbf (V m c main_arg0) (((cfg0.win 2).blk t).view.emb (ix2 p q))
    unfold rbf
    congr 1
    · apply Fin.ext
      show win0_2.index t (0 : Fin 2) * 512 + p.val = win0_2.index t (0 : Fin 2) * 512 + 1 * p.val; omega
    · apply Fin.ext
      show win0_2.index t (1 : Fin 2) * 512 + q.val = win0_2.index t (1 : Fin 2) * 512 + 1 * q.val; omega

/-- An index of the result is in point `t`'s block iff each coordinate lies in the block's range on its axis. -/
theorem mem_blk (t : Fin cfg0.N) (i : S8192x8192.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0).slice (win0_2.rect t)).set ↔ _
  rw [View.set_slice_whole, Rect.mem_set_unit]
  exact Iff.rfl

/-- The blocks tile the result: entry (r, c) lies in the block of the point with block indices r / 512, c / 512. -/
theorem covered (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The result array after the run. -/
theorem final (c : Dev nD) : (dats m 0 c).arrAt 2 cfg0.N = rbf (V m c main_arg0) :=
  (dats m 0 c).arrAt_eq_of_cover 2 (rbf (V m c main_arg0)) (fun t _ => flushed_eq m c t) covered

/-- The run, read: the result array ends at the matrix of the argument, the argument unchanged. -/
theorem run : θ_run defs (onTc (τ := τ) (main (F := Ideal))) ⟨m, fun _ => 0, ρ⟩ fun r => ∀ c : Dev nD,
      r.2.mem ((c.tc : Thread nD τ).loc main_v0) = rbf (m ((c.tc : Thread nD τ).loc main_arg0))
      ∧ r.2.mem ((c.tc : Thread nD τ).loc main_arg0) = m ((c.tc : Thread nD τ).loc main_arg0) :=
  (θ_run defs _ _).mono (fun r h c => ⟨(h c 2).trans (final m c),
      (h c 0).trans (((dats m 0 c).arrAt_in 0 rfl _).trans (A_eq m c 0))⟩)
    (run_main m ρ)

end Cert.KernelIdeal.RbfValue

end
-- ==== Proof.RefValue.lean ====
/-
  The reference's last stage, read index by index, is the Gaussian kernel matrix `Cert.Rbf.rbf` of its argument.
-/
import proofs.«104389_j40492951667428_1_alg».proof.Proof.Gen.ReferenceIdeal.Read
import proofs.«104389_j40492951667428_1_alg».proof.Proof.Spec

noncomputable section

namespace Cert.Rbf.RefSide

open Idealize.ShloMosaic Idealize.ShloMosaic.ValueIdx Cert.ReferenceIdeal Cert.ReferenceIdeal.Read

/-- The left summand of the squared distance reads row `r`: the entry (r, c) of the first broadcast goes back
    through the column broadcast to the row sum at `r`, whose `k`-th term sits at (r, k). -/
theorem idx_sq_row (r c : Fin 8192) (k : Fin 512) :
    idx_main_v1 (idx_main_v4 (idx_main_v6 (ix2 r c))) k = ix2 r k :=
  funext fun a => Fin.ext (by match a with | ⟨0, _⟩ => rfl | ⟨1, _⟩ => rfl)

/-- The right summand of the squared distance reads row `c`: the entry (r, c) of the second broadcast goes back
    through the row broadcast to the row sum at `c`, whose `k`-th term sits at (c, k). -/
theorem idx_sq_col (r c : Fin 8192) (k : Fin 512) :
    idx_main_v1 (idx_main_v5 (idx_main_v7 (ix2 r c))) k = ix2 c k :=
  funext fun a => Fin.ext (by match a with | ⟨0, _⟩ => rfl | ⟨1, _⟩ => rfl)

/-- The left factor of the Gram entry (r, c) at `k` sits at (r, k). -/
theorem idx_dot_left (r c : Fin 8192) (k : Fin 512) :
    lidx_main_v3 (ix2 r c) k = ix2 r k :=
  funext fun a => Fin.ext (by match a with | ⟨0, _⟩ => rfl | ⟨1, _⟩ => rfl)

/-- The right factor of the Gram entry (r, c) at `k` is the transpose at (k, c), that is the argument at (c, k). -/
theorem idx_dot_right (r c : Fin 8192) (k : Fin 512) :
    idx_main_v2 (ridx_main_v3 (ix2 r c) k) = ix2 c k :=
  funext fun a => Fin.ext (by match a with | ⟨0, _⟩ => rfl | ⟨1, _⟩ => rfl)

theorem ref_eq (x : (⟨Cert.ReferenceIdeal.S8192x512, .f32⟩ : BufTy).Contents (Elt Ideal)) :
    Cert.ReferenceIdeal.Read.val_main_v17 (F := Ideal) x = Cert.Rbf.rbf x := by
  funext i
  obtain ⟨r, c, rfl⟩ : ∃ (r : Fin 8192) (c : Fin 8192), i = ix2 r c := ⟨i 0, i 1, eq_ix2 i⟩
  -- every stage read at its index, outermost first, down to the argument
  simp only [val_main_v17_apply, val_main_v16_apply, val_main_v15_apply, val_main_cst_2_apply,
    val_main_v14_apply, val_main_v13_apply, val_main_v12_apply, val_main_cst_1_apply,
    val_main_v11_apply, val_main_v10_apply, val_main_v9_apply, val_main_cst_0_apply,
    val_main_v8_apply, val_main_v7_apply, val_main_v6_apply, val_main_v5_apply, val_main_v4_apply,
    val_main_v3_apply, val_main_v2_apply, val_main_v1_apply, val_main_cst_apply, val_main_v0_apply]
  -- the composed index maps are the coordinates (r, k) and (c, k); the float operations are those of the
  -- extended reals; the initial value of the row sums is zero
  simp only [idx_sq_row, idx_sq_col, idx_dot_left, idx_dot_right,
    Ideal.mulf_def, Ideal.addf_def, Ideal.subf_def, Ideal.maximumf_def, Ideal.hostNegf_def, Ideal.negf_def,
    Ideal.hostUnary_exp_def, Ideal.ofBits_def, Ideal.ofBits_zero_f32, zero_add]
  unfold Cert.Rbf.rbf Cert.Rbf.entry Cert.Rbf.rowSq Cert.Rbf.rowDot
  rfl

end Cert.Rbf.RefSide

end
-- ==== Proof.lean ====
/-
  A tiled Gaussian-kernel matrix against its plain reference, equal over the extended reals.

  Both programs take an 8192 × 512 matrix x and return the 8192 × 8192 matrix with entry (r, c)
      exp (-(max (‖x_r‖² + ‖x_c‖² - 2 · ⟨x_r, x_c⟩) 0) · ½)                                   (`Cert.Rbf.rbf`).
  The kernel computes it block by block on a 16 × 16 grid: point (i, j) reads row blocks i and j of x (the same
  array through two windows), forms the two blocks' row norms and their 512 × 512 Gram block, and writes output
  block (i, j); the reference forms the row norms and the whole Gram matrix at once. At exact arithmetic the
  kernel's narrowing of the Gram product's operands is the identity, a product into a zero accumulator is the
  plain contraction, and `0 - d` is `-d`; no other law is needed, and the inputs' finiteness is never used.

  * `frame_Kernel`, `frame_KernelIdeal` — Proof/FrameBits.lean, Proof/FrameIdeal.lean (over Proof/LibSharedInputs.lean:
    the run of a call whose two input windows share one array, the array's share dealt in halves).
  * `frame_ReferenceIdeal` — the reference's run with the result dropped.
  * `preserves_Kernel_KernelIdeal` — nothing was rewritten: `True`.
  * `algebraic_KernelIdeal_ReferenceIdeal` — the kernel's result array is `rbf` of the argument (Proof/ValueIdeal.lean,
    from each block's entries, Proof/BlockValue.lean); the reference's last stage is `rbf` of its argument
    (Proof/RefValue.lean); the arguments agree.
-/
import proofs.«104389_j40492951667428_1_alg».proof.Defs
import proofs.«104389_j40492951667428_1_alg».proof.Proof.Gen.Kernel
import proofs.«104389_j40492951667428_1_alg».proof.Proof.Gen.KernelIdeal
import proofs.«104389_j40492951667428_1_alg».proof.Proof.Gen.ReferenceIdeal
import proofs.«104389_j40492951667428_1_alg».proof.Proof.Gen.Pre_finite_inputs
import proofs.«104389_j40492951667428_1_alg».proof.Proof.Gen.ReferenceIdeal.Run
import proofs.«104389_j40492951667428_1_alg».proof.Proof.Gen.ReferenceIdeal.Read
import proofs.«104389_j40492951667428_1_alg».proof.Proof.FrameBits
import proofs.«104389_j40492951667428_1_alg».proof.Proof.FrameIdeal
import proofs.«104389_j40492951667428_1_alg».proof.Proof.ValueIdeal
import proofs.«104389_j40492951667428_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ

theorem frame_ki : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the Gaussian kernel matrix of one and the same argument. -/
theorem algebraic : Cert.algebraic_KernelIdeal_ReferenceIdeal := by
  intro m ρ m' ρ' _ hagree
  refine ⟨_, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Rbf.RefSide.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
